-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S4096x4096 : Shape := ⟨2, ![4096, 4096]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S16777216, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S16777216_S4096x4096 : S16777216.ShapeCasts S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S4096x4096_S16777216 : S4096x4096.ShapeCasts S16777216
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S16777216, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S16777216_S4096x4096 : S16777216.ShapeCasts S4096x4096
  shapeCasts_S4096x4096_S16777216 : S4096x4096.ShapeCasts S16777216
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KPieces.lean ====
/-
  What one grid point of the kernel leaves behind, case by case, as values.

  The body keeps a running block in its scratch buffer.  With `a` the block of the left matrix and `b` the
  block of the right matrix staged at the point, one step is `step a b acc = acc + a · b` (the printed payload
  `k0_pay2`), and the reset block is `k0_pay1`, zero everywhere.
    * at the first point of a run over the contraction axis the scratch is reset and stepped: `step a b reset`;
    * at a middle point it is stepped from what the point before left: `step a b prev`;
    * at the last point it is stepped the same way, and the output's staging buffer receives that same block.
  These hold at every float instance: nothing here computes.
-/
import proofs.«132528_j41583873359887_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Acc

open Cert.KernelIdeal Cert.KernelIdeal.Gen

variable {F : FTy → Type} [FloatOps F]

/-- The whole-buffer rectangle starts at the origin. -/
theorem origin : (![0, 0] : Fin 2 → Nat) = fun _ => 0 := funext fun a => by fin_cases a <;> rfl

/-- First point of a run: the scratch ends at one step from the reset block. -/
theorem scratch_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i)
    (x0 x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- Middle point: the scratch ends at one step from what it held. -/
theorem scratch_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i)
    (x0 x1 xs : Vec F S1024x1024 .f32) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero origin]
  simp only [View.readAt_eq_ld, h3.read_unread, h4.read_unread, h6.read_unread, View.ld_unit_zero (S := S1024x1024) origin]

/-- Last point: the scratch ends at one step from what it held, -/
theorem scratch_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 xs : Vec F S1024x1024 .f32) :
    sout0_C_0 c i a3 h3 a4 h4 a5 h5 a6 h6 hc0 hc1 x0 x1 xs = k0_pay2 x0 x1 xs := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero origin]
  simp only [View.readAt_eq_ld, h3.read_unread, h4.read_unread, h6.read_unread, View.ld_unit_zero (S := S1024x1024) origin]

/-- and the output's staging buffer receives that block (the scratch read back after its store). -/
theorem output_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i)
    (x0 x1 xs : Vec F S1024x1024 .f32) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin]

end Cert.KernelIdeal.Acc

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KPayload.lean ====
/-
  One step of the accumulation, read entry by entry over the extended reals.

  The step's payload narrows both staged blocks to bf16 (the identity on extended reals), multiplies them
  into a zero accumulator and adds the result to the running block.  At entry `(p, q)` that is
  `acc (p, q) + Σ kk, a (p, kk) · b (kk, q)`.  The reset block is `0` at every entry.
-/
import proofs.«132528_j41583873359887_1_alg».proof.Proof.Gen.KernelIdeal.Skeleton
import proofs.«132528_j41583873359887_1_alg».proof.Proof.LibRowOps
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Acc

open Cert.KernelIdeal Cert.KernelIdeal.Gen

variable {F : FTy → Type} [FloatOps F]

/-- The step as one vector expression: the casts of a block to its own shape drop out. -/
theorem step_eq (a b acc : Vec F S1024x1024 .f32) :
    k0_pay2 a b acc = addf acc (matmul dot_S1024x1024_S1024x1024_S1024x1024_1_0_0_1_n_n none
      (truncf .bf16 a bitsLt_bf16_f32) (truncf .bf16 b bitsLt_bf16_f32) (constant S1024x1024 .f32 0x00000000#32)) := by
  unfold k0_pay2
  simp only [shapeCast_self]

/-- The reset block is zero at every entry. -/
theorem reset_apply (j : S1024x1024.Idx) : k0_pay1 (F := Ideal) j = 0 := by
  unfold k0_pay1
  simp only [shapeCast_self]
  exact Ideal.ofBits_zero_f32

/-- One step at entry `(p, q)`: the running entry plus the row of `a` against the column of `b`. -/
theorem step_apply (a b acc : Vec Ideal S1024x1024 .f32) (p q : Fin 1024) :
    k0_pay2 a b acc (ix2 p q) = acc (ix2 p q) + ∑ kk : Fin 1024, a (ix2 p kk) * b (ix2 kk q) := by
  rw [step_eq]
  exact congrArg (acc (ix2 p q) + ·)
    (Cert.RowOps.matmul_apply dot_S1024x1024_S1024x1024_S1024x1024_1_0_0_1_n_n_wf none
      (truncf .bf16 a bitsLt_bf16_f32) (truncf .bf16 b bitsLt_bf16_f32) p q)

end Cert.KernelIdeal.Acc

end
-- ==== Proof.MatSpec.lean ====
/-
  The mathematics of the certificate, with no program in sight.

  Two square matrices of side 4096 over the extended reals, `J` and `E`, have the product
  `(J · E) (a, b) = Σ k, J (a, k) · E (k, b)`.  The contraction axis is cut into four blocks of 1024:
  position `kk` of block `kb` is `k = 1024 · kb + kk`.  Summing the four block sums one after the other,
  from the first block to the last, gives the whole sum: addition of extended reals is commutative and
  associative (the convention `+∞ + -∞ = -∞` does not break either law), so no finiteness is needed.
-/
import Idealize.ShloMosaic.PureOps.Ideal.Laws
import Idealize.ShloMosaic.Lib.ValueIdx
import Mathlib.Algebra.BigOperators.Fin
import Mathlib.Logic.Equiv.Fin.Basic

noncomputable section

namespace Cert.MatProd

open Idealize.ShloMosaic Idealize.ShloMosaic.ValueIdx

/-- The square shape of side 4096, spelled as the programs spell it. -/
abbrev Sq : Shape := ⟨2, ![4096, 4096]⟩

/-- Entry `r` of block `b` along an axis of length 4096 cut into four blocks of 1024: `1024 · b + r`
    (`b` is read modulo 4, so that the position is in range for every natural number `b`). -/
def pos (b : ℕ) (r : Fin 1024) : Fin 4096 := ⟨1024 * (b % 4) + r.val, by have := r.isLt; omega⟩

theorem pos_val (b : ℕ) (r : Fin 1024) : (pos b r).val = 1024 * (b % 4) + r.val := rfl

/-- The product of two 4096 × 4096 matrices of extended reals, entry by entry. -/
def prod (J E : FVec Ideal Sq .f32) : FVec Ideal Sq .f32 :=
  fun i => ∑ k : Fin 4096, J (ix2 (i 0) k) * E (ix2 k (i 1))

/-- The part of entry `(a, b)` of the product that the first `n` blocks of the contraction axis contribute. -/
def part (J E : FVec Ideal Sq .f32) (n : ℕ) (a b : Fin 4096) : EReal :=
  ∑ kb ∈ Finset.range n, ∑ kk : Fin 1024, J (ix2 a (pos kb kk)) * E (ix2 (pos kb kk) b)

theorem part_zero (J E : FVec Ideal Sq .f32) (a b : Fin 4096) : part J E 0 a b = 0 := by
  unfold part; rw [Finset.range_zero, Finset.sum_empty]

/-- One more block: the part so far plus that block's sum. -/
theorem part_succ (J E : FVec Ideal Sq .f32) (n : ℕ) (a b : Fin 4096) :
    part J E (n + 1) a b = part J E n a b + ∑ kk : Fin 1024, J (ix2 a (pos n kk)) * E (ix2 (pos n kk) b) := by
  unfold part; rw [Finset.sum_range_succ]

/-- A sum over an axis of length 4096 is the sum, over its four blocks, of the sums over each block. -/
theorem sum_blocks (f : Fin 4096 → EReal) :
    ∑ kb ∈ Finset.range 4, ∑ kk : Fin 1024, f (pos kb kk) = ∑ k : Fin 4096, f k := by
  rw [← Fin.sum_univ_eq_sum_range (fun kb => ∑ kk : Fin 1024, f (pos kb kk)) 4, ← Fintype.sum_prod_type']
  refine Fintype.sum_equiv (finProdFinEquiv : Fin 4 × Fin 1024 ≃ Fin 4096) _ _ fun x => congrArg f (Fin.ext ?_)
  obtain ⟨a, r⟩ := x
  have ha := a.isLt
  show 1024 * (a.val % 4) + r.val = r.val + 1024 * a.val
  rw [Nat.mod_eq_of_lt ha]; omega

/-- All four blocks together give the product's entry. -/
theorem part_four (J E : FVec Ideal Sq .f32) (a b : Fin 4096) : part J E 4 a b = prod J E (ix2 a b) := by
  unfold part prod
  exact sum_blocks fun k => J (ix2 a k) * E (ix2 k b)

end Cert.MatProd

end
-- ==== Proof.KBlocks.lean ====
/-
  Where a staged block sits in its matrix.

  The grid has 64 points; point `t` has coordinates `(t / 16, t / 4 % 4, t % 4)`: the output's block row, its
  block column, and the block of the contraction axis.  At point `t` the left window stages block
  `(t / 16, t % 4)` of the left matrix and the right window block `(t % 4, t / 4 % 4)` of the right matrix;
  the output window's block is `(t / 16, t / 4 % 4)`.  A block's entry `r` along an axis is entry
  `1024 · (block index) + r` of the matrix along that axis.
-/
import proofs.«132528_j41583873359887_1_alg».proof.Proof.Gen.KernelIdeal.Frame
import proofs.«132528_j41583873359887_1_alg».proof.Proof.MatSpec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.MatProd

variable {F : FTy → Type} [FloatOps F]
variable (m : (ℓ : Loc nD τ sig) → Buf (Elt F) ℓ)

/-- The left matrix (the second argument, reshaped) as the region finds it, -/
abbrev lhsArr (c : Dev nD) : Vec F S4096x4096 .f32 := V m c main_v0
/-- the right matrix (the first argument, reshaped), -/
abbrev rhsArr (c : Dev nD) : Vec F S4096x4096 .f32 := V m c main_v1
/-- the left block staged at point `t`, -/
abbrev lhsBlk (c : Dev nD) (t : Fin cfg0.N) : Vec F S1024x1024 .f32 := iblk m c 0 t
/-- and the right block staged there. -/
abbrev rhsBlk (c : Dev nD) (t : Fin cfg0.N) : Vec F S1024x1024 .f32 := iblk m c 1 t

/-- The three windows' block indices at every point, from the point's number. -/
theorem block_index : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- Entry `(p, kk)` of the left block at point `t` is entry `(1024 · (t / 16) + p, 1024 · (t % 4) + kk)` of the left matrix. -/
theorem lhsBlk_apply (c : Dev nD) (t : Fin cfg0.N) (p kk : Fin 1024) :
    lhsBlk m c t (ix2 p kk) = lhsArr m c (ix2 (pos (t.val / 16) p) (pos (t.val % 4) kk)) := by
  obtain ⟨e0, e1, -⟩ := block_index t
  have hN : t.val < 64 := lt_of_lt_of_eq t.isLt (show cfg0.N = 64 from N_0)
  show iblk m c 0 t (ix2 p kk) = _
  unfold iblk
  rw [View.read_apply]
  show V m c main_v0 _ = V m c main_v0 _
  congr 1
  funext a
  apply Fin.ext
  match a with
  | ⟨0, _⟩ => show win0_0.index t (0 : Fin 2) * 1024 + 1 * p.val = 1024 * (t.val / 16 % 4) + p.val; omega
  | ⟨1, _⟩ => show win0_0.index t (1 : Fin 2) * 1024 + 1 * kk.val = 1024 * (t.val % 4 % 4) + kk.val; omega

/-- Entry `(kk, q)` of the right block at point `t` is entry `(1024 · (t % 4) + kk, 1024 · (t / 4 % 4) + q)` of the right matrix. -/
theorem rhsBlk_apply (c : Dev nD) (t : Fin cfg0.N) (kk q : Fin 1024) :
    rhsBlk m c t (ix2 kk q) = rhsArr m c (ix2 (pos (t.val % 4) kk) (pos (t.val / 4) q)) := by
  obtain ⟨-, -, e0, e1, -⟩ := block_index t
  show iblk m c 1 t (ix2 kk q) = _
  unfold iblk
  rw [View.read_apply]
  show V m c main_v1 _ = V m c main_v1 _
  congr 1
  funext a
  apply Fin.ext
  match a with
  | ⟨0, _⟩ => show win0_1.index t (0 : Fin 2) * 1024 + 1 * kk.val = 1024 * (t.val % 4 % 4) + kk.val; omega
  | ⟨1, _⟩ => show win0_1.index t (1 : Fin 2) * 1024 + 1 * q.val = 1024 * (t.val / 4 % 4) + q.val; omega

end Cert.KernelIdeal.Acc

end
-- ==== Proof.KInduct.lean ====
/-
  The running block, point by point, over the extended reals.

  Write `J` and `E` for the two matrices as the region finds them.  Point `t` works on output block
  `(t / 16, t / 4 % 4)` and on block `t % 4` of the contraction axis.  After point `t` the scratch buffer holds,
  at entry `(p, q)`, the part of entry `(1024 · (t / 16) + p, 1024 · (t / 4 % 4) + q)` of `J · E` that blocks
  `0 … t % 4` of the contraction axis contribute: at `t % 4 = 0` the reset gives `0 +` the first block's sum, and
  each later point adds its own block's sum to what the point before left (same output block, one contraction
  block further).  At `t % 4 = 3` all four blocks are in, and the output's staging buffer holds the same block:
  the product's entries.  The proof is an induction on the point's number; nothing enumerates the grid.
-/
import proofs.«132528_j41583873359887_1_alg».proof.Proof.KPieces
import proofs.«132528_j41583873359887_1_alg».proof.Proof.KPayload
import proofs.«132528_j41583873359887_1_alg».proof.Proof.KBlocks

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.MatProd

variable (m : (ℓ : Loc nD τ sig) → Buf (Elt Ideal) ℓ)

/-- The sum point `t` contributes to entry `(p, q)` of its output block, over the staged blocks, is the sum over
    block `t % 4` of the contraction axis of the matrices' entries. -/
theorem block_sum (c : Dev nD) (t : Fin cfg0.N) (p q : Fin 1024) :
    ∑ kk : Fin 1024, lhsBlk m c t (ix2 p kk) * rhsBlk m c t (ix2 kk q)
      = ∑ kk : Fin 1024, lhsArr m c (ix2 (pos (t.val / 16) p) (pos (t.val % 4) kk)) * rhsArr m c (ix2 (pos (t.val % 4) kk) (pos (t.val / 4) q)) :=
  Finset.sum_congr rfl fun kk _ => by rw [lhsBlk_apply, rhsBlk_apply]

/-- A point that starts a run over the contraction axis leaves the first block's sum in the scratch. -/
theorem scratch_at_first (c : Dev nD) (t : Fin cfg0.N) (h0 : t.val % 4 = 0) (p q : Fin 1024) :
    (outsAt0 m c t.val t.isLt).2 (ix2 p q) = ∑ kk : Fin 1024, lhsBlk m c t (ix2 p kk) * rhsBlk m c t (ix2 kk q) := by
  have h1 : ¬t.val % 4 = 3 := by omega
  rw [outsAt0_A m c t h0 h1]
  dsimp only
  refine (congrFun (scratch_first (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (lhsBlk m c t) (rhsBlk m c t)) (ix2 p q)).trans ?_
  rw [step_apply, reset_apply, zero_add]

/-- A later point of the run adds its block's sum to what the point before left. -/
theorem scratch_at_later (c : Dev nD) (t : Fin cfg0.N) (h0 : ¬t.val % 4 = 0) (p q : Fin 1024) :
    (outsAt0 m c t.val t.isLt).2 (ix2 p q)
      = (outsAt0 m c (t.val - 1) (Nat.lt_of_le_of_lt (Nat.sub_le _ _) t.isLt)).2 (ix2 p q)
        + ∑ kk : Fin 1024, lhsBlk m c t (ix2 p kk) * rhsBlk m c t (ix2 kk q) := by
  by_cases h1 : t.val % 4 = 3
  · rw [outsAt0_C m c t h0 h1]
    dsimp only
    refine (congrFun (scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (lhsBlk m c t) (rhsBlk m c t) (outsAt0 m c (t.val - 1) (Nat.lt_of_le_of_lt (Nat.sub_le _ _) t.isLt)).2) (ix2 p q)).trans ?_
    rw [step_apply]
  · rw [outsAt0_B m c t h0 h1]
    dsimp only
    refine (congrFun (scratch_middle (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (lhsBlk m c t) (rhsBlk m c t) (outsAt0 m c (t.val - 1) (Nat.lt_of_le_of_lt (Nat.sub_le _ _) t.isLt)).2) (ix2 p q)).trans ?_
    rw [step_apply]

/-- At a point that ends a run the output's staging buffer holds what the scratch holds. -/
theorem output_at_last (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (output_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (lhsBlk m c t) (rhsBlk m c t) (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (lhsBlk m c t) (rhsBlk m c t) (outsAt0 m c (t.val - 1) (Nat.lt_of_le_of_lt (Nat.sub_le _ _) t.isLt)).2).symm

/-- THE INVARIANT: after point `n` the scratch holds, entry by entry, the part of the product that the
    contraction blocks `0 … n % 4` contribute to output block `(n / 16, n / 4 % 4)`. -/
theorem scratch_after (c : Dev nD) : ∀ (n : ℕ) (h : n < cfg0.N) (p q : Fin 1024),
    (outsAt0 m c n h).2 (ix2 p q) = part (lhsArr m c) (rhsArr m c) (n % 4 + 1) (pos (n / 16) p) (pos (n / 4) q)
  | 0, h, p, q => by
    rw [scratch_at_first m c ⟨0, h⟩ rfl p q, block_sum, part_succ, part_zero, zero_add]
  | n + 1, h, p, q => by
    by_cases h0 : (n + 1) % 4 = 0
    · rw [scratch_at_first m c ⟨n + 1, h⟩ h0 p q, block_sum]
      show _ = part _ _ ((n + 1) % 4 + 1) _ _
      rw [h0, part_succ, part_zero, zero_add]
    · rw [scratch_at_later m c ⟨n + 1, h⟩ h0 p q, block_sum]
      show (outsAt0 m c n _).2 (ix2 p q) + _ = _
      rw [scratch_after c n (Nat.lt_of_succ_lt h) p q]
      have e4 : (n + 1) % 4 = n % 4 + 1 := by omega
      have e16 : (n + 1) / 16 = n / 16 := by omega
      have eq4 : pos ((n + 1) / 4) q = pos (n / 4) q := Fin.ext (by rw [pos_val, pos_val]; omega)
      show _ + ∑ kk : Fin 1024, lhsArr m c (ix2 (pos ((n + 1) / 16) p) (pos ((n + 1) % 4) kk)) * rhsArr m c (ix2 (pos ((n + 1) % 4) kk) (pos ((n + 1) / 4) q)) = _
      rw [e16, eq4, e4, part_succ (lhsArr m c) (rhsArr m c) (n % 4 + 1)]

/-- At a point that ends a run, the output's staging buffer holds the product's entries of its block. -/
theorem output_after (c : Dev nD) (t : Fin cfg0.N) (h1 : t.val % 4 = 3) (p q : Fin 1024) :
    (outsAt0 m c t.val t.isLt).1 (ix2 p q) = prod (lhsArr m c) (rhsArr m c) (ix2 (pos (t.val / 16) p) (pos (t.val / 4) q)) := by
  rw [output_at_last m c t h1, scratch_after m c t.val t.isLt p q, h1]
  exact part_four _ _ _ _

end Cert.KernelIdeal.Acc

end
-- ==== Proof.KFinal.lean ====
/-
  The output array after the region: the product of the two matrices.

  The output window writes its block back exactly at the points `t` with `t % 4 = 3`, the end of a run over the
  contraction axis; there its staging buffer holds the product's entries of block `(t / 16, t / 4 % 4)`, which is
  block `t` of the product read through the window.  The sixteen output blocks tile the 4096 × 4096 array:
  entry `(r, s)` lies in the block written at point `((r / 1024) · 4 + s / 1024) · 4 + 3`.  So the array ends
  holding the product, entry by entry.
-/
import proofs.«132528_j41583873359887_1_alg».proof.Proof.KInduct

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.MatProd

variable (m : (ℓ : Loc nD τ sig) → Buf (Elt Ideal) ℓ)

/-- The product of the two matrices as the region finds them. -/
abbrev prodArr (c : Dev nD) : Vec Ideal S4096x4096 .f32 := prod (lhsArr m c) (rhsArr m c)

/-- What a flushing point writes back is its block of the product. -/
theorem flushed_eq (c : Dev nD) (t : Fin cfg0.N) (hf : (cfg0.win 2).flush t = true) :
    (dats m 0 c).flushed 2 t = ((cfg0.win 2).blk t).view.read (Elt Ideal) (prodArr m c) := by
  have h1 : t.val % 4 = 3 := (flush0_2 t).mp hf
  obtain ⟨-, -, -, -, e0, e1⟩ := block_index t
  have hN : t.val < 64 := lt_of_lt_of_eq t.isLt (show cfg0.N = 64 from N_0)
  show (cfg0.win 2).cut (grid0.coords t) ((dats m 0 c).after 2 t) = _
  rw [after0_2]
  funext j
  rw [View.read_apply]
  show (outsAt0 m c t.val t.isLt).1 j = prodArr m c (((cfg0.win 2).blk t).view.emb j)
  have hj : (j : S1024x1024.Idx) = ix2 (j 0) (j 1) := eq_ix2 j
  refine (congrArg (outsAt0 m c t.val t.isLt).1 hj).trans ?_
  refine (output_after m c t h1 (j 0) (j 1)).trans ?_
  refine congrArg (prod (lhsArr m c) (rhsArr m c)) (funext fun a => Fin.ext ?_)
  match a with
  | ⟨0, _⟩ => show 1024 * (t.val / 16 % 4) + (j 0).val = win0_2.index t (0 : Fin 2) * 1024 + 1 * (j 0).val; omega
  | ⟨1, _⟩ => show 1024 * (t.val / 4 % 4) + (j 1).val = win0_2.index t (1 : Fin 2) * 1024 + 1 * (j 1).val; omega

/-- An entry of the array is in point `t`'s output block iff each coordinate is in the block's range on its axis. -/
theorem mem_outBlock (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v2).slice (win0_2.rect t)).set ↔ _
  rw [View.set_slice_whole, Rect.mem_set_unit]
  exact Iff.rfl

/-- Every entry of the array lies in the block some flushing point writes. -/
theorem covered (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hN : cfg0.N = 64 := N_0
  obtain ⟨t, ht⟩ : ∃ t : Fin cfg0.N, t.val = ((i 0).val / 1024 * 4 + (i 1).val / 1024) * 4 + 3 :=
    ⟨⟨((i 0).val / 1024 * 4 + (i 1).val / 1024) * 4 + 3, by rw [hN]; omega⟩, rfl⟩
  obtain ⟨-, -, -, -, e0, e1⟩ := block_index t
  refine ⟨t, (flush0_2 t).mpr (by omega), ?_⟩
  rw [mem_outBlock]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the region is the product. -/
theorem outArr_final (c : Dev nD) : (dats m 0 c).arrAt 2 cfg0.N = prodArr m c :=
  (dats m 0 c).arrAt_eq_of_cover 2 (prodArr m c) (fun t hf => flushed_eq m c t hf) covered

end Cert.KernelIdeal.Acc

end
-- ==== Proof.KRun.lean ====
/-
  The idealized kernel's run, read as values.

  Before the region the host reshapes the two flat arguments into 4096 × 4096 matrices: the left matrix is the
  second argument, the right matrix the first.  The region leaves their product in its output array, and the
  host line after it reshapes that array flat again.  So every execution ends with the result array at the
  flattened product of the two reshaped arguments, and the arguments as launched.
-/
import proofs.«132528_j41583873359887_1_alg».proof.Proof.KFinal
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Tactic Idealize.ShloMosaic.StableHlo
open Idealize.ShloMosaic.Pipeline (Dat)

namespace Cert.KernelIdeal.Acc

open Cert.KernelIdeal Cert.KernelIdeal.Gen Cert.MatProd

variable (m : (ℓ : Loc nD τ sig) → Buf (Elt Ideal) ℓ) (ρ : Dev nD → PrngReg)

/-- The left matrix the region finds is the second argument reshaped, -/
theorem lhsArr_eq (c : Dev nD) :
    lhsArr m c = shapeCast S4096x4096 (m ((c : Thread nD τ).loc main_arg1)) shapeCasts_S16777216_S4096x4096 := by
  show StableHlo.after hostOps0 (fun b => m (c, b)) (Proc.devRef .tc main_v0) = _
  after_results
  rfl

/-- and the right matrix the first argument reshaped. -/
theorem rhsArr_eq (c : Dev nD) :
    rhsArr m c = shapeCast S4096x4096 (m ((c : Thread nD τ).loc main_arg0)) shapeCasts_S16777216_S4096x4096 := by
  show StableHlo.after hostOps0 (fun b => m (c, b)) (Proc.devRef .tc main_v1) = _
  after_results
  rfl

/-- The result: the product of the two reshaped arguments, flattened. -/
abbrev result (c : Dev nD) : Vec Ideal S16777216 .f32 :=
  shapeCast S16777216
    (prod (shapeCast S4096x4096 (m ((c : Thread nD τ).loc main_arg1)) shapeCasts_S16777216_S4096x4096)
      (shapeCast S4096x4096 (m ((c : Thread nD τ).loc main_arg0)) shapeCasts_S16777216_S4096x4096))
    shapeCasts_S4096x4096_S16777216

/-- What the region leaves in its output array, as the host line after the region reads it. -/
theorem region_out (c : Dev nD) :
    Pipeline.withArrays (cfgs 0).spec c (V0 m c) (fun w => (dats m 0 c).arrAt w (cfgs 0).N) (Proc.devRef .tc main_v2)
      = prodArr m c :=
  (Pipeline.withArrays_arr spec0 launch0.win.arr_inj c _ _ 2).trans (outArr_final m c)

/-- The host line after the region leaves the flattened product in the result array. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  refine Eq.trans (b := shapeCast S16777216
    (Pipeline.withArrays (cfgs 0).spec c (V0 m c) (fun w => (dats m 0 c).arrAt w (cfgs 0).N) (Proc.devRef .tc main_v2))
    shapeCasts_S4096x4096_S16777216) rfl ?_
  rw [region_out m c]
  show shapeCast S16777216 (prod (lhsArr m c) (rhsArr m c)) shapeCasts_S4096x4096_S16777216 = _
  rw [lhsArr_eq, rhsArr_eq]

/-- Every weakly fair execution of the idealized kernel terminates with the result array at the flattened
    product and both arguments as launched. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.RefProd.lean ====
/-
  The reference's result is the same flattened product.

  The reference reshapes the two flat arguments the same way and contracts the left matrix's columns with the
  right matrix's rows in one `dot_general`; over the extended reals its entry `(a, b)` is
  `Σ k, J (a, k) · E (k, b)`, the product's entry.  It then flattens the result.
-/
import proofs.«132528_j41583873359887_1_alg».proof.Proof.Gen.ReferenceIdeal.Read
import proofs.«132528_j41583873359887_1_alg».proof.Proof.MatSpec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.MatProd

/-- The reference's last stage (its result, as a function of the two arguments) is the flattened product of
    the two reshaped arguments. -/
theorem result_eq (x0 x1 : (⟨S16777216, .f32⟩ : BufTy).Contents (Elt Ideal)) :
    val_main_v3 (F := Ideal) x0 x1
      = shapeCast S16777216 (prod (val_main_v0 (F := Ideal) x1) (val_main_v1 (F := Ideal) x0)) shapeCasts_S4096x4096_S16777216 := by
  unfold val_main_v3
  refine congrArg (fun X => shapeCast S16777216 X shapeCasts_S4096x4096_S16777216) ?_
  funext i
  refine (val_main_v2_apply x0 x1 i).trans ?_
  unfold prod
  refine Finset.sum_congr rfl fun k _ => ?_
  have el : lidx_main_v2 i k = ix2 (i 0) k := funext fun a => Fin.ext (by
    match a with
    | ⟨0, _⟩ => rfl
    | ⟨1, _⟩ => rfl)
  have er : ridx_main_v2 i k = ix2 k (i 1) := funext fun a => Fin.ext (by
    match a with
    | ⟨0, _⟩ => rfl
    | ⟨1, _⟩ => rfl)
  rw [el, er]
  rfl

end Cert.ReferenceIdeal.RefValue

end
-- ==== Proof.lean ====
/-
  A 4096 × 4096 matrix product computed block by block equals the product computed in one piece.

  Both programs take two flat arrays of 16777216 floats and reshape each into a 4096 × 4096 matrix: `J` from the
  second argument, `E` from the first.  Both return `J · E` flattened.

  The reference contracts `J`'s columns with `E`'s rows in one operation:
  `(J · E) (a, b) = Σ k, J (a, k) · E (k, b)`, a sum over all 4096 positions of the contraction axis.

  The kernel works on a 4 × 4 × 4 grid: output blocks of 1024 × 1024, and the contraction axis cut into four
  blocks of 1024.  For each output block it clears a running block, and at each of the four contraction
  blocks adds the product of the staged 1024 × 1024 blocks of `J` and `E` (narrowed to bf16 first, which over the
  extended reals changes nothing); after the fourth it writes the running block out.  Entry `(p, q)` of that
  block is therefore `(((0 + Σ₀) + Σ₁) + Σ₂) + Σ₃`, where `Σ_b` is the sum over contraction block `b` of
  `J (1024·i + p, 1024·b + kk) · E (1024·b + kk, 1024·j + q)`.

  The four block sums, added in order, are the whole sum: addition of extended reals is commutative and
  associative and `0` is neutral, with no condition on the summands.  So the two results are equal entry by
  entry, and the precondition that the inputs are finite is never opened.

  Modules: the product and the block-sum law (MatSpec); what a grid point leaves, case by case (KPieces); one
  step at an entry (KPayload, over LibRowOps' reading of a matrix product at an entry); where a staged block
  sits in its matrix (KBlocks); the induction over the points (KInduct); the output array from its written
  blocks (KFinal); the kernel's run read as values, with the host lines around the region (KRun); the
  reference's contraction as the same product (RefProd).  The runs themselves, the frames and the reference's
  run are the generated modules imported below.
-/
import proofs.«132528_j41583873359887_1_alg».proof.Defs
import proofs.«132528_j41583873359887_1_alg».proof.Proof.Gen.Kernel
import proofs.«132528_j41583873359887_1_alg».proof.Proof.Gen.Kernel.Skeleton
import proofs.«132528_j41583873359887_1_alg».proof.Proof.Gen.Kernel.Launch
import proofs.«132528_j41583873359887_1_alg».proof.Proof.Gen.Kernel.Points
import proofs.«132528_j41583873359887_1_alg».proof.Proof.Gen.Kernel.Frame
import proofs.«132528_j41583873359887_1_alg».proof.Proof.Gen.KernelIdeal
import proofs.«132528_j41583873359887_1_alg».proof.Proof.Gen.KernelIdeal.Skeleton
import proofs.«132528_j41583873359887_1_alg».proof.Proof.Gen.KernelIdeal.Launch
import proofs.«132528_j41583873359887_1_alg».proof.Proof.Gen.KernelIdeal.Points
import proofs.«132528_j41583873359887_1_alg».proof.Proof.Gen.KernelIdeal.Frame
import proofs.«132528_j41583873359887_1_alg».proof.Proof.Gen.ReferenceIdeal
import proofs.«132528_j41583873359887_1_alg».proof.Proof.Gen.Pre_finite_inputs
import proofs.«132528_j41583873359887_1_alg».proof.Proof.Gen.ReferenceIdeal.Run
import proofs.«132528_j41583873359887_1_alg».proof.Proof.Gen.ReferenceIdeal.Read
import proofs.«132528_j41583873359887_1_alg».proof.Proof.KRun
import proofs.«132528_j41583873359887_1_alg».proof.Proof.RefProd
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is four host operations: its run, with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the flattened product of the two reshaped arguments: the kernel by its block-wise
    accumulation, the reference by its one contraction, from arguments that agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v3_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
